-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S32x16 : Shape := ⟨2, ![32, 16]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x16 .f32) (main_arg6 : FVec F S32 .f32) (main_arg7 : FVec F S32x16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S16x64 .f32) (main_arg3 : FVec F S16 .f32) (main_arg4 : FVec F S16x64 .f32) (main_arg5 : FVec F S32x16 .f32) (main_arg6 : FVec F S32 .f32) (main_arg7 : FVec F S32x16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S32x16 : Shape := ⟨2, ![32, 16]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x16 : Shape := ⟨2, ![64, 16]⟩
abbrev S1x16 : Shape := ⟨2, ![1, 16]⟩
abbrev S100000x16 : Shape := ⟨2, ![100000, 16]⟩
abbrev S10000x64 : Shape := ⟨2, ![10000, 64]⟩
abbrev S10000x1 : Shape := ⟨2, ![10000, 1]⟩
abbrev S10000x16 : Shape := ⟨2, ![10000, 16]⟩
abbrev S10000 : Shape := ⟨1, ![10000]⟩
abbrev S1600000x16 : Shape := ⟨2, ![1600000, 16]⟩
abbrev S16x32 : Shape := ⟨2, ![16, 32]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 60
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S16x64, .f32⟩
  | .hbm, ⟨3, _⟩ => ⟨S16, .f32⟩
  | .hbm, ⟨4, _⟩ => ⟨S16x64, .f32⟩
  | .hbm, ⟨5, _⟩ => ⟨S32x16, .f32⟩
  | .hbm, ⟨6, _⟩ => ⟨S32, .f32⟩
  | .hbm, ⟨7, _⟩ => ⟨S32x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S64x16, .f32⟩
  | .hbm, ⟨33, _⟩ => ⟨S64x16, .f32⟩
  | .hbm, ⟨34, _⟩ => ⟨S1x16, .f32⟩
  | .hbm, ⟨35, _⟩ => ⟨S100000x16, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S100000x1, .f32⟩
  | .hbm, ⟨56, _⟩ => ⟨S16x32, .f32⟩
  | .hbm, ⟨57, _⟩ => ⟨S16x32, .f32⟩
  | .hbm, ⟨58, _⟩ => ⟨S1x32, .f32⟩
  | .hbm, ⟨59, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x16, .f32⟩
  | .local _ .vmem, ⟨7, _⟩ => ⟨S1x16, .f32⟩
  | .local _ .vmem, ⟨8, _⟩ => ⟨S64x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x1, .f32⟩
  | .local _ .vmem, ⟨14, _⟩ => ⟨S10000x1, .f32⟩
  | .local _ .vmem, ⟨15, _⟩ => ⟨S10000x16, .f32⟩
  | .local _ .vmem, ⟨16, _⟩ => ⟨S10000x16, .f32⟩
  | .local _ .vmem, ⟨17, _⟩ => ⟨S16x32, .f32⟩
  | .local _ .vmem, ⟨18, _⟩ => ⟨S1x32, .f32⟩
  | .local _ .vmem, ⟨19, _⟩ => ⟨S16x32, .f32⟩
  | .local _ .vmem, ⟨20, _⟩ => ⟨S10000x32, .f32⟩
  | .local _ .vmem, ⟨21, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S16x64_S64x16_1_0 : S16x64.Transposes [1, 0] S64x16
  shapeCasts_S16_S1x16 : S16.ShapeCasts S1x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  transposes_S32x16_S16x32_1_0 : S32x16.Transposes [1, 0] S16x32
  shapeCasts_S32_S1x32 : S32.ShapeCasts S1x32
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x32_S10000x32_1_0_0_1_n_n_wf : DotDims.WF S10000x16 S16x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S100000x16.size a
  hwx0_6 : ∀ i : grid0.Coords, EltTy.bits .f32 = 32 ∨ (Rect.block (s := S100000x16) S10000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S10000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S32x16 : Shape := ⟨2, ![32, 16]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x16 : Shape := ⟨2, ![64, 16]⟩
abbrev S100000x16 : Shape := ⟨2, ![100000, 16]⟩
abbrev S1x16 : Shape := ⟨2, ![1, 16]⟩
abbrev S1600000x16 : Shape := ⟨2, ![1600000, 16]⟩
abbrev S16x32 : Shape := ⟨2, ![16, 32]⟩
abbrev S100000x32 : Shape := ⟨2, ![100000, 32]⟩
abbrev S1x32 : Shape := ⟨2, ![1, 32]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S16x64, .f32⟩
  | .hbm, ⟨3, _⟩ => ⟨S16, .f32⟩
  | .hbm, ⟨4, _⟩ => ⟨S16x64, .f32⟩
  | .hbm, ⟨5, _⟩ => ⟨S32x16, .f32⟩
  | .hbm, ⟨6, _⟩ => ⟨S32, .f32⟩
  | .hbm, ⟨7, _⟩ => ⟨S32x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x16, .f32⟩
  | .hbm, ⟨38, _⟩ => ⟨S100000x16, .f32⟩
  | .hbm, ⟨39, _⟩ => ⟨S1x16, .f32⟩
  | .hbm, ⟨40, _⟩ => ⟨S100000x16, .f32⟩
  | .hbm, ⟨41, _⟩ => ⟨S100000x16, .f32⟩
  | .hbm, ⟨42, _⟩ => ⟨S64x16, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x16, .f32⟩
  | .hbm, ⟨54, _⟩ => ⟨S100000x16, .f32⟩
  | .hbm, ⟨55, _⟩ => ⟨S_, .f32⟩
  | .hbm, ⟨56, _⟩ => ⟨S100000x16, .f32⟩
  | .hbm, ⟨57, _⟩ => ⟨S100000x16, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x16, .f32⟩
  | .hbm, ⟨67, _⟩ => ⟨S_, .f32⟩
  | .hbm, ⟨68, _⟩ => ⟨S100000x16, .f32⟩
  | .hbm, ⟨69, _⟩ => ⟨S1600000x1, .i32⟩
  | .hbm, ⟨70, _⟩ => ⟨S100000x16, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x16, .f32⟩
  | .hbm, ⟨82, _⟩ => ⟨S100000x16, .f32⟩
  | .hbm, ⟨83, _⟩ => ⟨S16x32, .f32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .hbm, ⟨88, _⟩ => ⟨S16x32, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x32, .f32⟩
  | .hbm, ⟨100, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  transposes_S32x16_S16x32_1_0 : S32x16.Transposes [1, 0] S16x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.SageRow.lean ====
/-
  One row of a GraphSAGE layer over the extended reals.

  A node's output row is a function of that node's data alone (its aggregated neighbour sum `agg`, its in-degree
  `cnt`, its own features `x`) and of the layer's weights: the neighbour MEAN is the sum divided by the degree floored
  at one; the row before normalisation is `mean · W_lᵀ + b + x · W_rᵀ`; the result is that row divided by its
  Euclidean norm floored at a small constant; the hidden layer then clamps at zero from below.  Both programs of
  this certificate compute exactly this, the kernel block of rows by block of rows and the reference on whole
  arrays, so each side is read at an index into these functions and nothing else is compared.

  The sums are plain finite sums of extended reals (addition there is commutative and associative, so no order
  of accumulation is left), the quotient is the ideal instance's division, the square root its square root.
-/
import Idealize.ShloMosaic.PureOps.Ideal
import Idealize.ShloMosaic.PureOps.Ideal.Laws

noncomputable section

open scoped BigOperators

namespace Cert.Sage

open Idealize.ShloMosaic

/-- The floor under a node's in-degree: the float one. -/
abbrev degFloor : EReal := Ideal.ofBits .f32 0x3F800000#32
/-- The floor under a row's norm. -/
abbrev normFloor : EReal := Ideal.ofBits .f32 0x2B8CBCCC#32
/-- The clamp of the hidden layer: the float zero. -/
abbrev clampAt : EReal := Ideal.ofBits .f32 0x00000000#32

/-- The mean of a node's neighbours at feature `k`: the aggregated sum over the degree floored at one. -/
def meanRow {K : Nat} (agg : Fin K → EReal) (cnt : EReal) (k : Fin K) : EReal :=
  Ideal.div (agg k) (max cnt degFloor)

/-- The row before normalisation at output feature `j`: `(mean · W_lᵀ + b) + x · W_rᵀ`, the weights read as
    `wl k j` (input feature `k`, output feature `j`). -/
def lin {K J : Nat} (mean x : Fin K → EReal) (wl wr : Fin K → Fin J → EReal) (b : Fin J → EReal) (j : Fin J) : EReal :=
  ((∑ k : Fin K, mean k * wl k j) + b j) + ∑ k : Fin K, x k * wr k j

/-- A row over its Euclidean norm floored at `normFloor`. -/
def unitRow {J : Nat} (o : Fin J → EReal) (j : Fin J) : EReal :=
  Ideal.div (o j) (max (Ideal.sqrt (∑ j' : Fin J, o j' * o j')) normFloor)

/-- The last layer's row. -/
def outRow {K J : Nat} (agg : Fin K → EReal) (cnt : EReal) (x : Fin K → EReal) (wl wr : Fin K → Fin J → EReal)
    (b : Fin J → EReal) (j : Fin J) : EReal :=
  unitRow (lin (meanRow agg cnt) x wl wr b) j

/-- The hidden layer's row: the same, clamped at zero from below. -/
def hiddenRow {K J : Nat} (agg : Fin K → EReal) (cnt : EReal) (x : Fin K → EReal) (wl wr : Fin K → Fin J → EReal)
    (b : Fin J → EReal) (j : Fin J) : EReal :=
  max (outRow agg cnt x wl wr b j) clampAt

end Cert.Sage

end
-- ==== Proof.KernelRows.lean ====
/-
  The two kernel bodies at a point of their blocks.

  Each body computes, from the blocks of rows it has loaded, one block of rows of its layer.  Read at row `p` and
  output feature `q` of the block, the stored value is the layer's row function (`Cert.Sage.hiddenRow` for the first
  region, `Cert.Sage.outRow` for the second) of row `p` of the loaded blocks and of the whole weight blocks: the
  matrix products are sums over the contracted feature, the lane reduction a sum over the output features, the
  broadcasts of the degree column and of the bias row read their one column or row.
-/
import proofs.«117718_j34772055228551_1_alg».proof.Proof.Gen.KernelIdeal.Skeleton
import proofs.«117718_j34772055228551_1_alg».proof.Proof.SageRow
import Idealize.ShloMosaic.Lib.ValueIdx
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert.Sage

section Layout
variable {α : Type}

/-- A column `[n, 1]` broadcast along the second axis reads its one column. -/
theorem bcast_col {n m : Nat} (v : (⟨2, ![n, 1]⟩ : Shape).Idx → α)
    (h : Shape.Broadcasts ⟨2, ![n, 1]⟩ ⟨2, ![n, m]⟩) (p : Fin n) (k : Fin m) :
    broadcastTo ⟨2, ![n, m]⟩ v h (ix2 p k) = v (ix2 p (0 : Fin 1)) :=
  broadcastTo_apply v h (ix2 p k) (ix2 p (0 : Fin 1)) (fun a => match a with
    | ⟨0, _⟩ => by
        show p.val = if n = 1 then 0 else p.val
        split
        · next h1 => have := p.isLt; omega
        · rfl
    | ⟨1, _⟩ => by
        show (0 : Nat) = if (1 : Nat) = 1 then 0 else k.val
        rw [if_pos rfl])

/-- A row `[1, m]` broadcast down the first axis reads its one row. -/
theorem bcast_row {n m : Nat} (v : (⟨2, ![1, m]⟩ : Shape).Idx → α)
    (h : Shape.Broadcasts ⟨2, ![1, m]⟩ ⟨2, ![n, m]⟩) (p : Fin n) (q : Fin m) :
    broadcastTo ⟨2, ![n, m]⟩ v h (ix2 p q) = v (ix2 (0 : Fin 1) q) :=
  broadcastTo_apply v h (ix2 p q) (ix2 (0 : Fin 1) q) (fun a => match a with
    | ⟨0, _⟩ => by
        show (0 : Nat) = if (1 : Nat) = 1 then 0 else p.val
        rw [if_pos rfl]
    | ⟨1, _⟩ => by
        show q.val = if m = 1 then 0 else q.val
        split
        · next h1 => have := q.isLt; omega
        · rfl)

/-- A vector `[n]` viewed as a column `[n, 1]` keeps its entries. -/
theorem cast_col {n : Nat} (v : (⟨1, ![n]⟩ : Shape).Idx → α)
    (h : Shape.ShapeCasts ⟨1, ![n]⟩ ⟨2, ![n, 1]⟩) (p : Fin n) :
    shapeCast ⟨2, ![n, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Layout

/-- The sum along the second axis of a block `[n, m]`, read at row `p`. -/
theorem lane_sum {n m : Nat} (v : FVec Ideal ⟨2, ![n, m]⟩ .f32)
    (h : Shape.Reduces ⟨2, ![n, m]⟩ [1] ⟨1, ![n]⟩) (hφ : FKind.Formats .f32)
    (hacc : (0x00000000#32 : BitVec 32) = FKind.add.neutral .f32 hφ) (p : Fin n) :
    multiReduction .add [1] ⟨1, ![n]⟩ v 0x00000000#32 h hφ hacc (ix1 p) = ∑ j : Fin m, v (ix2 p j) := by
  refine (Ideal.multiReduction_add_single v _ h hφ hacc (ix1 p)).trans ?_
  refine Finset.sum_congr rfl fun j _ => congrArg v ?_
  funext a
  match a with
  | ⟨0, _⟩ => rfl
  | ⟨1, _⟩ => rfl

/-! The block product of region 0: the operand indices at an output index, axis by axis. -/

theorem lhs0_0 (i : S10000x16.Idx) (c : dot_S10000x64_S64x16_S10000x16_1_0_0_1_n_n.contr.Idx) :
    (dot_S10000x64_S64x16_S10000x16_1_0_0_1_n_n.lhsIdx i c 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs0_1 (i : S10000x16.Idx) (c : dot_S10000x64_S64x16_S10000x16_1_0_0_1_n_n.contr.Idx) :
    (dot_S10000x64_S64x16_S10000x16_1_0_0_1_n_n.lhsIdx i c 1).val = (c ⟨0, by decide⟩).val :=
  dot_S10000x64_S64x16_S10000x16_1_0_0_1_n_n.lhsIdx_val_of_single rfl i c
theorem rhs0_0 (i : S10000x16.Idx) (c : dot_S10000x64_S64x16_S10000x16_1_0_0_1_n_n.contr.Idx) :
    (dot_S10000x64_S64x16_S10000x16_1_0_0_1_n_n.rhsIdx i c 0).val = (c ⟨0, by decide⟩).val :=
  dot_S10000x64_S64x16_S10000x16_1_0_0_1_n_n.rhsIdx_val_of_single rfl i c
theorem rhs0_1 (i : S10000x16.Idx) (c : dot_S10000x64_S64x16_S10000x16_1_0_0_1_n_n.contr.Idx) :
    (dot_S10000x64_S64x16_S10000x16_1_0_0_1_n_n.rhsIdx i c 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The block product into the zero block, read at `(p, q)`: the sum over the contracted feature. -/
theorem mm0 (a : FVec Ideal S10000x64 .f32) (w : FVec Ideal S64x16 .f32) (p : Fin 10000) (q : Fin 16) :
    matmul dot_S10000x64_S64x16_S10000x16_1_0_0_1_n_n none a w (constant (F := Ideal) S10000x16 .f32 0x00000000#32) (ix2 p q)
      = ∑ k : Fin 64, a (ix2 p k) * w (ix2 k q) := by
  simp only [matmul]
  rw [Ideal.matmul_constant_zero_apply, ← Equiv.sum_comp (contrEquiv1 dot_S10000x64_S64x16_S10000x16_1_0_0_1_n_n 64 rfl rfl).symm]
  refine Finset.sum_congr rfl fun k _ => ?_
  have hk := contrEquiv1_symm_val dot_S10000x64_S64x16_S10000x16_1_0_0_1_n_n 64 rfl rfl k
  have el : dot_S10000x64_S64x16_S10000x16_1_0_0_1_n_n.lhsIdx (ix2 p q) ((contrEquiv1 dot_S10000x64_S64x16_S10000x16_1_0_0_1_n_n 64 rfl rfl).symm k) = ix2 p k := funext fun a => Fin.ext (by
    match a with
    | ⟨0, _⟩ => exact lhs0_0 _ _
    | ⟨1, _⟩ => exact (lhs0_1 _ _).trans hk)
  have er : dot_S10000x64_S64x16_S10000x16_1_0_0_1_n_n.rhsIdx (ix2 p q) ((contrEquiv1 dot_S10000x64_S64x16_S10000x16_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-! The block product of region 1: the operand indices at an output index, axis by axis. -/

theorem lhs1_0 (i : S10000x32.Idx) (c : dot_S10000x16_S16x32_S10000x32_1_0_0_1_n_n.contr.Idx) :
    (dot_S10000x16_S16x32_S10000x32_1_0_0_1_n_n.lhsIdx i c 0).val = (i 0).val := by
  unfold DotDims.lhsIdx
  rw [dif_neg (show ¬(0 : Fin S10000x16.rank) ∈ dot_S10000x16_S16x32_S10000x32_1_0_0_1_n_n.lhsBatch by decide), dif_pos (show (0 : Fin S10000x16.rank) ∈ dot_S10000x16_S16x32_S10000x32_1_0_0_1_n_n.lhsNonContracting by decide)]
  rfl
theorem lhs1_1 (i : S10000x32.Idx) (c : dot_S10000x16_S16x32_S10000x32_1_0_0_1_n_n.contr.Idx) :
    (dot_S10000x16_S16x32_S10000x32_1_0_0_1_n_n.lhsIdx i c 1).val = (c ⟨0, by decide⟩).val :=
  dot_S10000x16_S16x32_S10000x32_1_0_0_1_n_n.lhsIdx_val_of_single rfl i c
theorem rhs1_0 (i : S10000x32.Idx) (c : dot_S10000x16_S16x32_S10000x32_1_0_0_1_n_n.contr.Idx) :
    (dot_S10000x16_S16x32_S10000x32_1_0_0_1_n_n.rhsIdx i c 0).val = (c ⟨0, by decide⟩).val :=
  dot_S10000x16_S16x32_S10000x32_1_0_0_1_n_n.rhsIdx_val_of_single rfl i c
theorem rhs1_1 (i : S10000x32.Idx) (c : dot_S10000x16_S16x32_S10000x32_1_0_0_1_n_n.contr.Idx) :
    (dot_S10000x16_S16x32_S10000x32_1_0_0_1_n_n.rhsIdx i c 1).val = (i 1).val := by
  unfold DotDims.rhsIdx
  rw [dif_neg (show ¬(1 : Fin S16x32.rank) ∈ dot_S10000x16_S16x32_S10000x32_1_0_0_1_n_n.rhsBatch by decide), dif_pos (show (1 : Fin S16x32.rank) ∈ dot_S10000x16_S16x32_S10000x32_1_0_0_1_n_n.rhsNonContracting by decide)]
  rfl

/-- The block product into the zero block, read at `(p, q)`: the sum over the contracted feature. -/
theorem mm1 (a : FVec Ideal S10000x16 .f32) (w : FVec Ideal S16x32 .f32) (p : Fin 10000) (q : Fin 32) :
    matmul dot_S10000x16_S16x32_S10000x32_1_0_0_1_n_n none a w (constant (F := Ideal) S10000x32 .f32 0x00000000#32) (ix2 p q)
      = ∑ k : Fin 16, a (ix2 p k) * w (ix2 k q) := by
  simp only [matmul]
  rw [Ideal.matmul_constant_zero_apply, ← Equiv.sum_comp (contrEquiv1 dot_S10000x16_S16x32_S10000x32_1_0_0_1_n_n 16 rfl rfl).symm]
  refine Finset.sum_congr rfl fun k _ => ?_
  have hk := contrEquiv1_symm_val dot_S10000x16_S16x32_S10000x32_1_0_0_1_n_n 16 rfl rfl k
  have el : dot_S10000x16_S16x32_S10000x32_1_0_0_1_n_n.lhsIdx (ix2 p q) ((contrEquiv1 dot_S10000x16_S16x32_S10000x32_1_0_0_1_n_n 16 rfl rfl).symm k) = ix2 p k := funext fun a => Fin.ext (by
    match a with
    | ⟨0, _⟩ => exact lhs1_0 _ _
    | ⟨1, _⟩ => exact (lhs1_1 _ _).trans hk)
  have er : dot_S10000x16_S16x32_S10000x32_1_0_0_1_n_n.rhsIdx (ix2 p q) ((contrEquiv1 dot_S10000x16_S16x32_S10000x32_1_0_0_1_n_n 16 rfl rfl).symm k) = ix2 k q := funext fun a => Fin.ext (by
    match a with
    | ⟨0, _⟩ => exact (rhs1_0 _ _).trans hk
    | ⟨1, _⟩ => exact rhs1_1 _ _)
  rw [el, er]

/-- The sum of squares along the lanes of a block `[10000, 16]`, as a column, read at row `p`. -/
theorem sq_col0 (V : FVec Ideal S10000x16 .f32) (p : Fin 10000) :
    shapeCast S10000x1 (multiReduction .add [1] S10000 (mulf V V) 0x00000000#32 reduces_S10000x16_S10000 (.inl rfl) rfl)
        shapeCasts_S10000_S10000x1 (ix2 p (0 : Fin 1))
      = ∑ j : Fin 16, V (ix2 p j) * V (ix2 p j) := by
  refine (cast_col _ _ p).trans ?_
  exact lane_sum (mulf V V) _ _ _ p

/-- A block `V` over the floored Euclidean norms of its rows, read at `(p, q)`. -/
theorem unit0 (V : FVec Ideal S10000x16 .f32) (p : Fin 10000) (q : Fin 16) :
    divf V (broadcastTo S10000x16
        (maximumf
          (sqrt (shapeCast S10000x1 (multiReduction .add [1] S10000 (mulf V V) 0x00000000#32 reduces_S10000x16_S10000 (.inl rfl) rfl)
            shapeCasts_S10000_S10000x1))
          (broadcast S10000x1 (Scalar.ofBits .f32 0x2B8CBCCC#32)))
        broadcasts_S10000x1_S10000x16) (ix2 p q)
      = unitRow (fun j : Fin 16 => V (ix2 p j)) q := by
  show Ideal.div (V (ix2 p q)) (broadcastTo S10000x16 _ broadcasts_S10000x1_S10000x16 (ix2 p q))
    = Ideal.div (V (ix2 p q)) (max (Ideal.sqrt (∑ j' : Fin 16, V (ix2 p j') * V (ix2 p j'))) normFloor)
  refine congrArg (Ideal.div (V (ix2 p q))) ?_
  refine (bcast_col _ _ p q).trans ?_
  exact congrArg (fun t => max (Ideal.sqrt t) normFloor) (sq_col0 V p)

/-- The sum of squares along the lanes of a block `[10000, 32]`, as a column, read at row `p`. -/
theorem sq_col1 (V : FVec Ideal S10000x32 .f32) (p : Fin 10000) :
    shapeCast S10000x1 (multiReduction .add [1] S10000 (mulf V V) 0x00000000#32 reduces_S10000x32_S10000 (.inl rfl) rfl)
        shapeCasts_S10000_S10000x1 (ix2 p (0 : Fin 1))
      = ∑ j : Fin 32, V (ix2 p j) * V (ix2 p j) := by
  refine (cast_col _ _ p).trans ?_
  exact lane_sum (mulf V V) _ _ _ p

/-- A block `V` over the floored Euclidean norms of its rows, read at `(p, q)`. -/
theorem unit1 (V : FVec Ideal S10000x32 .f32) (p : Fin 10000) (q : Fin 32) :
    divf V (broadcastTo S10000x32
        (maximumf
          (sqrt (shapeCast S10000x1 (multiReduction .add [1] S10000 (mulf V V) 0x00000000#32 reduces_S10000x32_S10000 (.inl rfl) rfl)
            shapeCasts_S10000_S10000x1))
          (broadcast S10000x1 (Scalar.ofBits .f32 0x2B8CBCCC#32)))
        broadcasts_S10000x1_S10000x32) (ix2 p q)
      = unitRow (fun j : Fin 32 => V (ix2 p j)) q := by
  show Ideal.div (V (ix2 p q)) (broadcastTo S10000x32 _ broadcasts_S10000x1_S10000x32 (ix2 p q))
    = Ideal.div (V (ix2 p q)) (max (Ideal.sqrt (∑ j' : Fin 32, V (ix2 p j') * V (ix2 p j'))) normFloor)
  refine congrArg (Ideal.div (V (ix2 p q))) ?_
  refine (bcast_col _ _ p q).trans ?_
  exact congrArg (fun t => max (Ideal.sqrt t) normFloor) (sq_col1 V p)

/-- The first region's stored block at `(p, q)`. -/
theorem hidden_pay (agg : Vec Ideal S10000x64 .f32) (cnt : Vec Ideal S10000x1 .f32) (wl : Vec Ideal S64x16 .f32)
    (b : Vec Ideal S1x16 .f32) (x : Vec Ideal S10000x64 .f32) (wr : Vec Ideal S64x16 .f32) (p : Fin 10000) (q : Fin 16) :
    k0_pay1 (F := Ideal) agg cnt wl b x wr (ix2 p q)
      = hiddenRow (fun k : Fin 64 => agg (ix2 p k)) (cnt (ix2 p (0 : Fin 1))) (fun k : Fin 64 => x (ix2 p k))
          (fun (k : Fin 64) (j : Fin 16) => wl (ix2 k j)) (fun (k : Fin 64) (j : Fin 16) => wr (ix2 k j))
          (fun j : Fin 16 => b (ix2 (0 : Fin 1) j)) q := by
  unfold k0_pay1
  simp only [shapeCast_self]
  refine (congrArg (fun t => max t clampAt) (unit0 _ p q)).trans ?_
  unfold hiddenRow outRow
  refine congrArg (fun o : Fin 16 → EReal => max (unitRow o q) clampAt) (funext fun j => ?_)
  simp only [addf_apply, divf_apply, maximumf_apply, broadcast_apply, bcast_col, bcast_row, mm0, lin, meanRow]
  rfl

/-- The second region's stored block at `(p, q)`. -/
theorem out_pay (agg : Vec Ideal S10000x16 .f32) (cnt : Vec Ideal S10000x1 .f32) (wl : Vec Ideal S16x32 .f32)
    (b : Vec Ideal S1x32 .f32) (x : Vec Ideal S10000x16 .f32) (wr : Vec Ideal S16x32 .f32) (p : Fin 10000) (q : Fin 32) :
    k1_pay1 (F := Ideal) agg cnt wl b x wr (ix2 p q)
      = outRow (fun k : Fin 16 => agg (ix2 p k)) (cnt (ix2 p (0 : Fin 1))) (fun k : Fin 16 => x (ix2 p k))
          (fun (k : Fin 16) (j : Fin 32) => wl (ix2 k j)) (fun (k : Fin 16) (j : Fin 32) => wr (ix2 k j))
          (fun j : Fin 32 => b (ix2 (0 : Fin 1) j)) q := by
  unfold k1_pay1
  simp only [shapeCast_self]
  refine (unit1 _ p q).trans ?_
  unfold outRow
  refine congrArg (fun o : Fin 32 → EReal => unitRow o q) (funext fun j => ?_)
  simp only [addf_apply, divf_apply, maximumf_apply, broadcast_apply, bcast_col, bcast_row, mm1, lin, meanRow]
  rfl

end Cert.KernelIdeal.Rows

end
-- ==== Proof.KernelBlocks0.lean ====
/-
  The first kernel region's output array, whole.

  The region visits ten grid points; at point `t` it loads rows `10000 t … 10000 t + 9999` of the aggregated sums,
  of the degree column and of the features, the whole weight and bias arrays, and writes back rows
  `10000 t … 10000 t + 9999` of its output.  A row of a layer depends on that row of the node data only, so the block
  a point writes back is that block of rows of ONE function of the arrays as the region finds them
  (`hidden`: `Cert.Sage.hiddenRow` at every node), and the ten blocks tile the array: after the region the array is
  that function.  Stated at any contents `V` of the buffers at the region's entry.
-/
import proofs.«117718_j34772055228551_1_alg».proof.Proof.Gen.KernelIdeal.Frame
import proofs.«117718_j34772055228551_1_alg».proof.Proof.KernelRows
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The hidden layer on whole arrays: at node `i 0` and feature `i 1`, the layer's row function of that node's row of
    the aggregated sums `agg`, its degree `cnt`, its row of the features `x`, and the (already transposed) weights. -/
def hidden (agg : Vec Ideal S100000x64 .f32) (cnt : Vec Ideal S100000x1 .f32) (x : Vec Ideal S100000x64 .f32)
    (wl : Vec Ideal S64x16 .f32) (b : Vec Ideal S1x16 .f32) (wr : Vec Ideal S64x16 .f32) : Vec Ideal S100000x16 .f32 :=
  fun i => hiddenRow (fun k : Fin 64 => agg (ix2 (i 0 : Fin 100000) k)) (cnt (ix2 (i 0 : Fin 100000) (0 : Fin 1)))
    (fun k : Fin 64 => x (ix2 (i 0 : Fin 100000) k)) (fun (k : Fin 64) (j : Fin 16) => wl (ix2 k j))
    (fun (k : Fin 64) (j : Fin 16) => wr (ix2 k j)) (fun j : Fin 16 => b (ix2 (0 : Fin 1) j)) (i 1 : Fin 16)

theorem hz : (![0, 0] : Fin 2 → Nat) = fun _ => 0 := funext fun a => by fin_cases a <;> rfl

/-- The printed index maps over the grid: the three row-blocked inputs and the output sit at block row `t`, block
    column 0; the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s blocks is row `10000 t + p` of the arrays. -/
def row (t : Fin cfg0.N) (p : Fin 10000) : Fin 100000 :=
  ⟨t.val * 10000 + p.val, by have h := t.isLt; have hN : cfg0.N = 10 := N_0; have := p.isLt; omega⟩

/-- The aggregated sums' block at a point. -/
theorem blk_agg (c : Dev nD) (t : Fin cfg0.N) (p : Fin 10000) (k : Fin 64) :
    (iblk0 V c 0 t : Vec Ideal S10000x64 .f32) (ix2 p k)
      = (V c (Pipeline.arrRef spec0 0) : Vec Ideal S100000x64 .f32) (ix2 (row t p) k) := by
  obtain ⟨e0, e1, -⟩ := idx_facts t
  unfold iblk0
  rw [View.read_apply]
  show (V c (Pipeline.arrRef spec0 0) : Vec Ideal S100000x64 .f32) _ = _
  refine congrArg (V c (Pipeline.arrRef spec0 0) : Vec Ideal S100000x64 .f32) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The degree column's block at a point. -/
theorem blk_cnt (c : Dev nD) (t : Fin cfg0.N) (p : Fin 10000) (z : Fin 1) :
    (iblk0 V c 1 t : Vec Ideal S10000x1 .f32) (ix2 p z)
      = (V c (Pipeline.arrRef spec0 1) : Vec Ideal S100000x1 .f32) (ix2 (row t p) z) := by
  obtain ⟨-, -, e0, e1, -⟩ := idx_facts t
  unfold iblk0
  rw [View.read_apply]
  show (V c (Pipeline.arrRef spec0 1) : Vec Ideal S100000x1 .f32) _ = _
  refine congrArg (V c (Pipeline.arrRef spec0 1) : Vec Ideal S100000x1 .f32) (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 1 + 1 * z.val = z.val; rw [e1]; omega

/-- The features' block at a point. -/
theorem blk_x (c : Dev nD) (t : Fin cfg0.N) (p : Fin 10000) (k : Fin 64) :
    (iblk0 V c 2 t : Vec Ideal S10000x64 .f32) (ix2 p k)
      = (V c (Pipeline.arrRef spec0 2) : Vec Ideal S100000x64 .f32) (ix2 (row t p) k) := by
  obtain ⟨-, -, -, -, e0, e1, -⟩ := idx_facts t
  unfold iblk0
  rw [View.read_apply]
  show (V c (Pipeline.arrRef spec0 2) : Vec Ideal S100000x64 .f32) _ = _
  refine congrArg (V c (Pipeline.arrRef spec0 2) : Vec Ideal S100000x64 .f32) (funext fun a => Fin.ext ?_)
  match a with
  | ⟨0, _⟩ => show win0_2.index t (0 : Fin 2) * 10000 + 1 * p.val = t.val * 10000 + p.val; rw [e0]; omega
  | ⟨1, _⟩ => show win0_2.index t (1 : Fin 2) * 64 + 1 * k.val = k.val; rw [e1]; omega

/-- The left weights' block is the whole array, at every point. -/
theorem blk_wl (c : Dev nD) (t : Fin cfg0.N) (k : Fin 64) (j : Fin 16) :
    (iblk0 V c 3 t : Vec Ideal S64x16 .f32) (ix2 k j)
      = (V c (Pipeline.arrRef spec0 3) : Vec Ideal S64x16 .f32) (ix2 k j) := by
  obtain ⟨-, -, -, -, -, -, e0, e1, -⟩ := idx_facts t
  unfold iblk0
  rw [View.read_apply]
  show (V c (Pipeline.arrRef spec0 3) : Vec Ideal S64x16 .f32) _ = _
  refine congrArg (V c (Pipeline.arrRef spec0 3) : Vec Ideal S64x16 .f32) (funext fun a => Fin.ext ?_)
  match a with
  | ⟨0, _⟩ => show win0_3.index t (0 : Fin 2) * 64 + 1 * k.val = k.val; rw [e0]; omega
  | ⟨1, _⟩ => show win0_3.index t (1 : Fin 2) * 16 + 1 * j.val = j.val; rw [e1]; omega

/-- The bias row's block is the whole array. -/
theorem blk_b (c : Dev nD) (t : Fin cfg0.N) (z : Fin 1) (j : Fin 16) :
    (iblk0 V c 4 t : Vec Ideal S1x16 .f32) (ix2 z j)
      = (V c (Pipeline.arrRef spec0 4) : Vec Ideal S1x16 .f32) (ix2 z j) := by
  obtain ⟨-, -, -, -, -, -, -, -, e0, e1, -⟩ := idx_facts t
  unfold iblk0
  rw [View.read_apply]
  show (V c (Pipeline.arrRef spec0 4) : Vec Ideal S1x16 .f32) _ = _
  refine congrArg (V c (Pipeline.arrRef spec0 4) : Vec Ideal S1x16 .f32) (funext fun a => Fin.ext ?_)
  match a with
  | ⟨0, _⟩ => show win0_4.index t (0 : Fin 2) * 1 + 1 * z.val = z.val; rw [e0]; omega
  | ⟨1, _⟩ => show win0_4.index t (1 : Fin 2) * 16 + 1 * j.val = j.val; rw [e1]; omega

/-- The right weights' block is the whole array. -/
theorem blk_wr (c : Dev nD) (t : Fin cfg0.N) (k : Fin 64) (j : Fin 16) :
    (iblk0 V c 5 t : Vec Ideal S64x16 .f32) (ix2 k j)
      = (V c (Pipeline.arrRef spec0 5) : Vec Ideal S64x16 .f32) (ix2 k j) := by
  obtain ⟨-, -, -, -, -, -, -, -, -, -, e0, e1, -⟩ := idx_facts t
  unfold iblk0
  rw [View.read_apply]
  show (V c (Pipeline.arrRef spec0 5) : Vec Ideal S64x16 .f32) _ = _
  refine congrArg (V c (Pipeline.arrRef spec0 5) : Vec Ideal S64x16 .f32) (funext fun a => Fin.ext ?_)
  match a with
  | ⟨0, _⟩ => show win0_5.index t (0 : Fin 2) * 64 + 1 * k.val = k.val; rw [e0]; omega
  | ⟨1, _⟩ => show win0_5.index t (1 : Fin 2) * 16 + 1 * j.val = j.val; rw [e1]; omega

/-- Where the output's block at point `t` sits in its array. -/
theorem emb_out (t : Fin cfg0.N) (p : Fin 10000) (q : Fin 16) :
    ((cfg0.win 6).blk t).view.emb (ix2 p q) = (ix2 (row t p) q : S100000x16.Idx) := by
  obtain ⟨-, -, -, -, -, -, -, -, -, -, -, -, e0, e1⟩ := idx_facts t
  refine funext fun a => Fin.ext ?_
  match a with
  | ⟨0, _⟩ => show win0_6.index t (0 : Fin 2) * 10000 + 1 * p.val = t.val * 10000 + p.val; rw [e0]; omega
  | ⟨1, _⟩ => show win0_6.index t (1 : Fin 2) * 16 + 1 * q.val = q.val; rw [e1]; omega

/-- What point `t` writes back is block `t` of `hidden` of the arrays as the region finds them. -/
theorem flushed_eq (c : Dev nD) (t : Fin cfg0.N) :
    (dat0 V c).flushed 6 t = ((cfg0.win 6).blk t).view.read (Elt Ideal)
      (hidden (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz, View.ld_unit_zero (S := S64x16) hz,
    View.ld_unit_zero (S := S1x16) hz]
  funext j
  obtain ⟨p, q, rfl⟩ : ∃ (p : Fin 10000) (q : Fin 16), j = ix2 p q := ⟨j 0, j 1, eq_ix2 j⟩
  rw [View.read_apply, emb_out]
  refine (Rows.hidden_pay _ _ _ _ _ _ p q).trans ?_
  unfold hidden
  simp only [blk_agg, blk_cnt, blk_x, blk_wl, blk_b, blk_wr]
  rfl

/-- An index of the output array is in point `t`'s block iff its row is among the point's rows. -/
theorem mem_blk (t : Fin cfg0.N) (i : S100000x16.Idx) :
    i ∈ ((cfg0.win 6).blk t).view.set ↔ ∀ a : Fin 2, win0_6.index t a * S10000x16.size a ≤ (i a).val ∧ (i a).val < win0_6.index t a * S10000x16.size a + S10000x16.size a := by
  show i ∈ ((View.whole main_v22).slice (win0_6.rect t)).set ↔ _
  rw [View.set_slice_whole, Rect.mem_set_unit]
  exact Iff.rfl

/-- The ten blocks tile the array: row `r` is in the block of point `r / 10000`. -/
theorem cover (i : S100000x16.Idx) : ∃ t : Fin cfg0.N, (cfg0.win 6).flush t = true ∧ i ∈ ((cfg0.win 6).blk t).view.set := by
  have hi0 : (i 0).val < 100000 := (i 0).isLt
  have hi1 : (i 1).val < 16 := (i 1).isLt
  have hN : cfg0.N = 10 := N_0
  refine ⟨⟨(i 0).val / 10000, by omega⟩, flush0_6 _, ?_⟩
  rw [mem_blk]
  obtain ⟨-, -, -, -, -, -, -, -, -, -, -, -, e0, e1⟩ := idx_facts ⟨(i 0).val / 10000, by omega⟩
  intro a
  match a with
  | ⟨0, _⟩ =>
    show win0_6.index _ (0 : Fin 2) * 10000 ≤ (i 0).val ∧ (i 0).val < win0_6.index _ (0 : Fin 2) * 10000 + 10000
    rw [e0]; show (i 0).val / 10000 * 10000 ≤ (i 0).val ∧ (i 0).val < (i 0).val / 10000 * 10000 + 10000; omega
  | ⟨1, _⟩ =>
    show win0_6.index _ (1 : Fin 2) * 16 ≤ (i 1).val ∧ (i 1).val < win0_6.index _ (1 : Fin 2) * 16 + 16
    rw [e1]; omega

/-- After the region its output array is `hidden` of the arrays as it found them. -/
theorem final (c : Dev nD) :
    (dat0 V c).arrAt 6 cfg0.N
      = hidden (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 V c).arrAt_eq_of_cover 6 _ (fun t _ => flushed_eq V c t) cover

end Cert.KernelIdeal.Blocks0

end
-- ==== Proof.KernelBlocks1.lean ====
/-
  The second kernel region's output array, whole.

  The same shape as the first region one layer up: ten grid points, point `t` loading rows
  `10000 t … 10000 t + 9999` of the second layer's aggregated sums, degree column and features (the hidden layer's
  rows) and the whole second-layer weights and bias, and writing back those rows of the result.  The block a point
  writes back is that block of rows of ONE function of the arrays as the region finds them (`output`:
  `Cert.Sage.outRow` at every node, no clamp), and the ten blocks tile the array.  Stated at any contents `V` of the
  buffers at the region's entry.
-/
import proofs.«117718_j34772055228551_1_alg».proof.Proof.Gen.KernelIdeal.Frame
import proofs.«117718_j34772055228551_1_alg».proof.Proof.KernelRows
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The last layer on whole arrays: at node `i 0` and feature `i 1`, the layer's row function of that node's row of
    the aggregated sums `agg`, its degree `cnt`, its row of the features `x`, and the (already transposed) weights. -/
def output (agg : Vec Ideal S100000x16 .f32) (cnt : Vec Ideal S100000x1 .f32) (x : Vec Ideal S100000x16 .f32)
    (wl : Vec Ideal S16x32 .f32) (b : Vec Ideal S1x32 .f32) (wr : Vec Ideal S16x32 .f32) : Vec Ideal S100000x32 .f32 :=
  fun i => outRow (fun k : Fin 16 => agg (ix2 (i 0 : Fin 100000) k)) (cnt (ix2 (i 0 : Fin 100000) (0 : Fin 1)))
    (fun k : Fin 16 => x (ix2 (i 0 : Fin 100000) k)) (fun (k : Fin 16) (j : Fin 32) => wl (ix2 k j))
    (fun (k : Fin 16) (j : Fin 32) => wr (ix2 k j)) (fun j : Fin 32 => b (ix2 (0 : Fin 1) j)) (i 1 : Fin 32)

theorem hz : (![0, 0] : Fin 2 → Nat) = fun _ => 0 := funext fun a => by fin_cases a <;> rfl

/-- The printed index maps over the grid: the three row-blocked inputs and the output sit at block row `t`, block
    column 0; the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s blocks is row `10000 t + p` of the arrays. -/
def row (t : Fin cfg1.N) (p : Fin 10000) : Fin 100000 :=
  ⟨t.val * 10000 + p.val, by have h := t.isLt; have hN : cfg1.N = 10 := N_1; have := p.isLt; omega⟩

/-- The aggregated sums' block at a point. -/
theorem blk_agg (c : Dev nD) (t : Fin cfg1.N) (p : Fin 10000) (k : Fin 16) :
    (iblk1 V c 0 t : Vec Ideal S10000x16 .f32) (ix2 p k)
      = (V c (Pipeline.arrRef spec1 0) : Vec Ideal S100000x16 .f32) (ix2 (row t p) k) := by
  obtain ⟨e0, e1, -⟩ := idx_facts t
  unfold iblk1
  rw [View.read_apply]
  show (V c (Pipeline.arrRef spec1 0) : Vec Ideal S100000x16 .f32) _ = _
  refine congrArg (V c (Pipeline.arrRef spec1 0) : Vec Ideal S100000x16 .f32) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 16 + 1 * k.val = k.val; rw [e1]; omega

/-- The degree column's block at a point. -/
theorem blk_cnt (c : Dev nD) (t : Fin cfg1.N) (p : Fin 10000) (z : Fin 1) :
    (iblk1 V c 1 t : Vec Ideal S10000x1 .f32) (ix2 p z)
      = (V c (Pipeline.arrRef spec1 1) : Vec Ideal S100000x1 .f32) (ix2 (row t p) z) := by
  obtain ⟨-, -, e0, e1, -⟩ := idx_facts t
  unfold iblk1
  rw [View.read_apply]
  show (V c (Pipeline.arrRef spec1 1) : Vec Ideal S100000x1 .f32) _ = _
  refine congrArg (V c (Pipeline.arrRef spec1 1) : Vec Ideal S100000x1 .f32) (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 1 + 1 * z.val = z.val; rw [e1]; omega

/-- The features' block at a point. -/
theorem blk_x (c : Dev nD) (t : Fin cfg1.N) (p : Fin 10000) (k : Fin 16) :
    (iblk1 V c 2 t : Vec Ideal S10000x16 .f32) (ix2 p k)
      = (V c (Pipeline.arrRef spec1 2) : Vec Ideal S100000x16 .f32) (ix2 (row t p) k) := by
  obtain ⟨-, -, -, -, e0, e1, -⟩ := idx_facts t
  unfold iblk1
  rw [View.read_apply]
  show (V c (Pipeline.arrRef spec1 2) : Vec Ideal S100000x16 .f32) _ = _
  refine congrArg (V c (Pipeline.arrRef spec1 2) : Vec Ideal S100000x16 .f32) (funext fun a => Fin.ext ?_)
  match a with
  | ⟨0, _⟩ => show win1_2.index t (0 : Fin 2) * 10000 + 1 * p.val = t.val * 10000 + p.val; rw [e0]; omega
  | ⟨1, _⟩ => show win1_2.index t (1 : Fin 2) * 16 + 1 * k.val = k.val; rw [e1]; omega

/-- The left weights' block is the whole array, at every point. -/
theorem blk_wl (c : Dev nD) (t : Fin cfg1.N) (k : Fin 16) (j : Fin 32) :
    (iblk1 V c 3 t : Vec Ideal S16x32 .f32) (ix2 k j)
      = (V c (Pipeline.arrRef spec1 3) : Vec Ideal S16x32 .f32) (ix2 k j) := by
  obtain ⟨-, -, -, -, -, -, e0, e1, -⟩ := idx_facts t
  unfold iblk1
  rw [View.read_apply]
  show (V c (Pipeline.arrRef spec1 3) : Vec Ideal S16x32 .f32) _ = _
  refine congrArg (V c (Pipeline.arrRef spec1 3) : Vec Ideal S16x32 .f32) (funext fun a => Fin.ext ?_)
  match a with
  | ⟨0, _⟩ => show win1_3.index t (0 : Fin 2) * 16 + 1 * k.val = k.val; rw [e0]; omega
  | ⟨1, _⟩ => show win1_3.index t (1 : Fin 2) * 32 + 1 * j.val = j.val; rw [e1]; omega

/-- The bias row's block is the whole array. -/
theorem blk_b (c : Dev nD) (t : Fin cfg1.N) (z : Fin 1) (j : Fin 32) :
    (iblk1 V c 4 t : Vec Ideal S1x32 .f32) (ix2 z j)
      = (V c (Pipeline.arrRef spec1 4) : Vec Ideal S1x32 .f32) (ix2 z j) := by
  obtain ⟨-, -, -, -, -, -, -, -, e0, e1, -⟩ := idx_facts t
  unfold iblk1
  rw [View.read_apply]
  show (V c (Pipeline.arrRef spec1 4) : Vec Ideal S1x32 .f32) _ = _
  refine congrArg (V c (Pipeline.arrRef spec1 4) : Vec Ideal S1x32 .f32) (funext fun a => Fin.ext ?_)
  match a with
  | ⟨0, _⟩ => show win1_4.index t (0 : Fin 2) * 1 + 1 * z.val = z.val; rw [e0]; omega
  | ⟨1, _⟩ => show win1_4.index t (1 : Fin 2) * 32 + 1 * j.val = j.val; rw [e1]; omega

/-- The right weights' block is the whole array. -/
theorem blk_wr (c : Dev nD) (t : Fin cfg1.N) (k : Fin 16) (j : Fin 32) :
    (iblk1 V c 5 t : Vec Ideal S16x32 .f32) (ix2 k j)
      = (V c (Pipeline.arrRef spec1 5) : Vec Ideal S16x32 .f32) (ix2 k j) := by
  obtain ⟨-, -, -, -, -, -, -, -, -, -, e0, e1, -⟩ := idx_facts t
  unfold iblk1
  rw [View.read_apply]
  show (V c (Pipeline.arrRef spec1 5) : Vec Ideal S16x32 .f32) _ = _
  refine congrArg (V c (Pipeline.arrRef spec1 5) : Vec Ideal S16x32 .f32) (funext fun a => Fin.ext ?_)
  match a with
  | ⟨0, _⟩ => show win1_5.index t (0 : Fin 2) * 16 + 1 * k.val = k.val; rw [e0]; omega
  | ⟨1, _⟩ => show win1_5.index t (1 : Fin 2) * 32 + 1 * j.val = j.val; rw [e1]; omega

/-- Where the output's block at point `t` sits in its array. -/
theorem emb_out (t : Fin cfg1.N) (p : Fin 10000) (q : Fin 32) :
    ((cfg1.win 6).blk t).view.emb (ix2 p q) = (ix2 (row t p) q : S100000x32.Idx) := by
  obtain ⟨-, -, -, -, -, -, -, -, -, -, -, -, e0, e1⟩ := idx_facts t
  refine funext fun a => Fin.ext ?_
  match a with
  | ⟨0, _⟩ => show win1_6.index t (0 : Fin 2) * 10000 + 1 * p.val = t.val * 10000 + p.val; rw [e0]; omega
  | ⟨1, _⟩ => show win1_6.index t (1 : Fin 2) * 32 + 1 * q.val = q.val; rw [e1]; omega

/-- What point `t` writes back is block `t` of `output` of the arrays as the region finds them. -/
theorem flushed_eq (c : Dev nD) (t : Fin cfg1.N) :
    (dat1 V c).flushed 6 t = ((cfg1.win 6).blk t).view.read (Elt Ideal)
      (output (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S10000x16) hz, View.ld_unit_zero (S := S10000x1) hz, View.ld_unit_zero (S := S16x32) hz,
    View.ld_unit_zero (S := S1x32) hz]
  funext j
  obtain ⟨p, q, rfl⟩ : ∃ (p : Fin 10000) (q : Fin 32), j = ix2 p q := ⟨j 0, j 1, eq_ix2 j⟩
  rw [View.read_apply, emb_out]
  refine (Rows.out_pay _ _ _ _ _ _ p q).trans ?_
  unfold output
  simp only [blk_agg, blk_cnt, blk_x, blk_wl, blk_b, blk_wr]
  rfl

/-- An index of the output array is in point `t`'s block iff its row is among the point's rows. -/
theorem mem_blk (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v41).slice (win1_6.rect t)).set ↔ _
  rw [View.set_slice_whole, Rect.mem_set_unit]
  exact Iff.rfl

/-- The ten blocks tile the array: row `r` is in the block of point `r / 10000`. -/
theorem cover (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 10 := N_1
  refine ⟨⟨(i 0).val / 10000, by omega⟩, flush1_6 _, ?_⟩
  rw [mem_blk]
  obtain ⟨-, -, -, -, -, -, -, -, -, -, -, -, e0, e1⟩ := idx_facts ⟨(i 0).val / 10000, by omega⟩
  intro a
  match a with
  | ⟨0, _⟩ =>
    show win1_6.index _ (0 : Fin 2) * 10000 ≤ (i 0).val ∧ (i 0).val < win1_6.index _ (0 : Fin 2) * 10000 + 10000
    rw [e0]; show (i 0).val / 10000 * 10000 ≤ (i 0).val ∧ (i 0).val < (i 0).val / 10000 * 10000 + 10000; omega
  | ⟨1, _⟩ =>
    show win1_6.index _ (1 : Fin 2) * 16 ≤ (i 1).val ∧ (i 1).val < win1_6.index _ (1 : Fin 2) * 32 + 32
    rw [e1]; omega

/-- After the region its output array is `output` of the arrays as it found them. -/
theorem final (c : Dev nD) :
    (dat1 V c).arrAt 6 cfg1.N
      = output (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 _ (fun t _ => flushed_eq V c t) cover

end Cert.KernelIdeal.Blocks1

end
-- ==== Proof.ReferenceRows.lean ====
/-
  The reference's two layers at an index.

  Read one host operation at a time (the generated read-at-an-index lemmas), the reference's hidden layer at node
  `r` and feature `q` is `Cert.Sage.hiddenRow` of row `r` of its aggregated sums, degree and features and of the
  transposed weights, and its result is `Cert.Sage.outRow` of the same of the second layer, whose features are the
  hidden layer's rows.  The two aggregation stages (a gather and scatter-adds over the edge list) are not read: they
  stay the functions of their operands the program applies.
-/
import proofs.«117718_j34772055228551_1_alg».proof.Proof.Gen.ReferenceIdeal.Read
import proofs.«117718_j34772055228551_1_alg».proof.Proof.SageRow
import Idealize.ShloMosaic.Lib.ValueIdx
import Idealize.ShloMosaic.Lib.Pipeline.Value
import Idealize.ShloMosaic.PureOps.Ideal.Laws

noncomputable section

open scoped BigOperators

namespace Cert.ReferenceIdeal.Rows

open Cert.ReferenceIdeal Cert.ReferenceIdeal.Read Idealize.ShloMosaic Idealize.ShloMosaic.ValueIdx Cert.Sage

/-! ## The first layer -/

section Hidden

variable (x0 : (⟨S100000x64, .f32⟩ : BufTy).Contents (Elt Ideal)) (x1 : (⟨S2x1600000, .i32⟩ : BufTy).Contents (Elt Ideal))
  (x2 : (⟨S16x64, .f32⟩ : BufTy).Contents (Elt Ideal)) (x3 : (⟨S16, .f32⟩ : BufTy).Contents (Elt Ideal))
  (x4 : (⟨S16x64, .f32⟩ : BufTy).Contents (Elt Ideal))

/-! The operand index of each layout operation, at an index given by its coordinates. -/

/-- A column of height one is read at its row. -/
theorem idx_v20 (r : Fin 100000) (z : Fin 1) : idx_main_v20 (ix2 r z) = ix1 r := by
  funext a; match a with | ⟨0, _⟩ => rfl
/-- A column broadcast along the features is read at its row. -/
theorem idx_v21 (r : Fin 100000) (k : Fin 64) : idx_main_v21 (ix2 r k) = ix2 r (0 : Fin 1) := by
  funext a; match a with | ⟨0, _⟩ => rfl | ⟨1, _⟩ => rfl
/-- The transposed weights at `(k, j)` are the weights at `(j, k)`. -/
theorem idx_v23 (k : Fin 64) (j : Fin 16) : idx_main_v23 (ix2 k j) = ix2 j k := by
  funext a; match a with | ⟨0, _⟩ => rfl | ⟨1, _⟩ => rfl
theorem lidx_v24 (r : Fin 100000) (j : Fin 16) (k : Fin 64) : lidx_main_v24 (ix2 r j) k = ix2 r k := by
  funext a; match a with | ⟨0, _⟩ => rfl | ⟨1, _⟩ => rfl
theorem ridx_v24 (r : Fin 100000) (j : Fin 16) (k : Fin 64) : ridx_main_v24 (ix2 r j) k = ix2 k j := by
  funext a; match a with | ⟨0, _⟩ => rfl | ⟨1, _⟩ => rfl
/-- The bias as a row of height one is read at its feature. -/
theorem idx_v25 (z : Fin 1) (j : Fin 16) : idx_main_v25 (ix2 z j) = ix1 j := by
  funext a; match a with | ⟨0, _⟩ => rfl
/-- The bias row broadcast along the nodes is read at its feature. -/
theorem idx_v26 (r : Fin 100000) (j : Fin 16) : idx_main_v26 (ix2 r j) = ix2 (0 : Fin 1) j := by
  funext a; match a with | ⟨0, _⟩ => rfl | ⟨1, _⟩ => rfl
theorem idx_v28 (k : Fin 64) (j : Fin 16) : idx_main_v28 (ix2 k j) = ix2 j k := by
  funext a; match a with | ⟨0, _⟩ => rfl | ⟨1, _⟩ => rfl
theorem lidx_v29 (r : Fin 100000) (j : Fin 16) (k : Fin 64) : lidx_main_v29 (ix2 r j) k = ix2 r k := by
  funext a; match a with | ⟨0, _⟩ => rfl | ⟨1, _⟩ => rfl
theorem ridx_v29 (r : Fin 100000) (j : Fin 16) (k : Fin 64) : ridx_main_v29 (ix2 r j) k = ix2 k j := by
  funext a; match a with | ⟨0, _⟩ => rfl | ⟨1, _⟩ => rfl
/-- The sum along a row runs over that row's entries. -/
theorem idx_call0_v1 (r : Fin 100000) (j : Fin 16) : idx_main_call0_v1 (ix1 r) j = ix2 r j := by
  funext a; match a with | ⟨0, _⟩ => rfl | ⟨1, _⟩ => rfl
theorem idx_call0_v2 (r : Fin 100000) (z : Fin 1) : idx_main_call0_v2 (ix2 r z) = ix1 r := by
  funext a; match a with | ⟨0, _⟩ => rfl
theorem idx_v34 (r : Fin 100000) (j : Fin 16) : idx_main_v34 (ix2 r j) = ix2 r (0 : Fin 1) := by
  funext a; match a with | ⟨0, _⟩ => rfl | ⟨1, _⟩ => rfl

/-- The degree of node `r` floored at one. -/
theorem degree_at (r : Fin 100000) :
    val_main_v19 (F := Ideal) x1 (ix1 r) = max (val_main_v17 (F := Ideal) x1 (ix1 r)) degFloor := by
  rw [val_main_v19_apply, val_main_v18_apply, val_main_cst_3_apply]
  rfl

/-- The neighbour mean of node `r` at feature `k`. -/
theorem mean_at (r : Fin 100000) (k : Fin 64) :
    val_main_v22 (F := Ideal) x0 x1 (ix2 r k) = meanRow (fun k : Fin 64 => val_main_v13 (F := Ideal) x0 x1 (ix2 r k)) (val_main_v17 (F := Ideal) x1 (ix1 r)) k := by
  rw [val_main_v22_apply, val_main_v21_apply, idx_v21, val_main_v20_apply, idx_v20, degree_at]
  rfl

/-- The mean's product with the transposed left weights, at `(r, j)`. -/
theorem dotl_at (r : Fin 100000) (j : Fin 16) :
    val_main_v24 (F := Ideal) x0 x1 x2 (ix2 r j)
      = ∑ k : Fin 64, meanRow (fun k : Fin 64 => val_main_v13 (F := Ideal) x0 x1 (ix2 r k)) (val_main_v17 (F := Ideal) x1 (ix1 r)) k * x2 (ix2 j k) := by
  rw [val_main_v24_apply]
  refine Finset.sum_congr rfl fun k _ => ?_
  rw [lidx_v24, ridx_v24, val_main_v23_apply, idx_v23, mean_at]

/-- The features' product with the transposed right weights, at `(r, j)`. -/
theorem dotr_at (r : Fin 100000) (j : Fin 16) :
    val_main_v29 (F := Ideal) x0 x4 (ix2 r j) = ∑ k : Fin 64, x0 (ix2 r k) * x4 (ix2 j k) := by
  rw [val_main_v29_apply]
  refine Finset.sum_congr rfl fun k _ => ?_
  rw [lidx_v29, ridx_v29, val_main_v28_apply, idx_v28]

/-- The row of node `r` before normalisation, at output feature `j`. -/
theorem lin_at (r : Fin 100000) (j : Fin 16) :
    val_main_v30 (F := Ideal) x0 x1 x2 x3 x4 (ix2 r j)
      = lin (meanRow (fun k : Fin 64 => val_main_v13 (F := Ideal) x0 x1 (ix2 r k)) (val_main_v17 (F := Ideal) x1 (ix1 r))) (fun k : Fin 64 => x0 (ix2 r k)) (fun (k : Fin 64) (j : Fin 16) => x2 (ix2 j k))
          (fun (k : Fin 64) (j : Fin 16) => x4 (ix2 j k)) (fun j : Fin 16 => x3 (ix1 j)) j := by
  rw [val_main_v30_apply, val_main_v27_apply, dotl_at, dotr_at, val_main_v26_apply, idx_v26, val_main_v25_apply, idx_v25]
  rfl

/-- The sum of the squares of the row of node `r`: the zero initial value adds nothing. -/
theorem sumsq_at (r : Fin 100000) :
    val_main_call0_v1 (F := Ideal) x0 x1 x2 x3 x4 (ix1 r)
      = ∑ j : Fin 16, (lin (meanRow (fun k : Fin 64 => val_main_v13 (F := Ideal) x0 x1 (ix2 r k)) (val_main_v17 (F := Ideal) x1 (ix1 r))) (fun k : Fin 64 => x0 (ix2 r k)) (fun (k : Fin 64) (j : Fin 16) => x2 (ix2 j k))
          (fun (k : Fin 64) (j : Fin 16) => x4 (ix2 j k)) (fun j : Fin 16 => x3 (ix1 j)) j)
          * (lin (meanRow (fun k : Fin 64 => val_main_v13 (F := Ideal) x0 x1 (ix2 r k)) (val_main_v17 (F := Ideal) x1 (ix1 r))) (fun k : Fin 64 => x0 (ix2 r k)) (fun (k : Fin 64) (j : Fin 16) => x2 (ix2 j k))
          (fun (k : Fin 64) (j : Fin 16) => x4 (ix2 j k)) (fun j : Fin 16 => x3 (ix1 j)) j) := by
  rw [val_main_call0_v1_apply, val_main_call0_cst_apply, Ideal.ofBits_def, Ideal.ofBits_zero_f32, zero_add]
  refine Finset.sum_congr rfl fun j _ => ?_
  rw [idx_call0_v1, val_main_call0_v0_apply, lin_at]
  rfl

end Hidden

/-- The reference's hidden layer at `(r, q)`. -/
theorem hidden_row (x0 : (⟨S100000x64, .f32⟩ : BufTy).Contents (Elt Ideal)) (x1 : (⟨S2x1600000, .i32⟩ : BufTy).Contents (Elt Ideal))
    (x2 : (⟨S16x64, .f32⟩ : BufTy).Contents (Elt Ideal)) (x3 : (⟨S16, .f32⟩ : BufTy).Contents (Elt Ideal))
    (x4 : (⟨S16x64, .f32⟩ : BufTy).Contents (Elt Ideal)) (r : Fin 100000) (q : Fin 16) :
    val_main_v36 (F := Ideal) x0 x1 x2 x3 x4 (ix2 r q)
      = hiddenRow (fun k : Fin 64 => val_main_v13 (F := Ideal) x0 x1 (ix2 r k)) (val_main_v17 (F := Ideal) x1 (ix1 r))
          (fun k : Fin 64 => x0 (ix2 r k)) (fun (k : Fin 64) (j : Fin 16) => x2 (ix2 j k))
          (fun (k : Fin 64) (j : Fin 16) => x4 (ix2 j k)) (fun j : Fin 16 => x3 (ix1 j)) q := by
  rw [val_main_v36_apply, val_main_v35_apply, val_main_v34_apply, idx_v34, val_main_v33_apply, val_main_v31_apply,
    val_main_call0_v2_apply, idx_call0_v2, sumsq_at, val_main_v32_apply, val_main_cst_4_apply, val_main_call1_v0_apply,
    val_main_call1_cst_apply, lin_at]
  unfold hiddenRow outRow unitRow
  simp only [Ideal.maximumf_def, Ideal.hostDivf_def, Ideal.hostUnary_sqrt_def, Ideal.ofBits_def]

/-! ## The second layer -/

section Out

variable (x0 : (⟨S100000x64, .f32⟩ : BufTy).Contents (Elt Ideal)) (x1 : (⟨S2x1600000, .i32⟩ : BufTy).Contents (Elt Ideal))
  (x2 : (⟨S16x64, .f32⟩ : BufTy).Contents (Elt Ideal)) (x3 : (⟨S16, .f32⟩ : BufTy).Contents (Elt Ideal))
  (x4 : (⟨S16x64, .f32⟩ : BufTy).Contents (Elt Ideal)) (x5 : (⟨S32x16, .f32⟩ : BufTy).Contents (Elt Ideal))
  (x6 : (⟨S32, .f32⟩ : BufTy).Contents (Elt Ideal)) (x7 : (⟨S32x16, .f32⟩ : BufTy).Contents (Elt Ideal))

theorem idx_v53 (r : Fin 100000) (z : Fin 1) : idx_main_v53 (ix2 r z) = ix1 r := by
  funext a; match a with | ⟨0, _⟩ => rfl
theorem idx_v54 (r : Fin 100000) (k : Fin 16) : idx_main_v54 (ix2 r k) = ix2 r (0 : Fin 1) := by
  funext a; match a with | ⟨0, _⟩ => rfl | ⟨1, _⟩ => rfl
theorem idx_v56 (k : Fin 16) (j : Fin 32) : idx_main_v56 (ix2 k j) = ix2 j k := by
  funext a; match a with | ⟨0, _⟩ => rfl | ⟨1, _⟩ => rfl
theorem lidx_v57 (r : Fin 100000) (j : Fin 32) (k : Fin 16) : lidx_main_v57 (ix2 r j) k = ix2 r k := by
  funext a; match a with | ⟨0, _⟩ => rfl | ⟨1, _⟩ => rfl
theorem ridx_v57 (r : Fin 100000) (j : Fin 32) (k : Fin 16) : ridx_main_v57 (ix2 r j) k = ix2 k j := by
  funext a; match a with | ⟨0, _⟩ => rfl | ⟨1, _⟩ => rfl
theorem idx_v58 (z : Fin 1) (j : Fin 32) : idx_main_v58 (ix2 z j) = ix1 j := by
  funext a; match a with | ⟨0, _⟩ => rfl
theorem idx_v59 (r : Fin 100000) (j : Fin 32) : idx_main_v59 (ix2 r j) = ix2 (0 : Fin 1) j := by
  funext a; match a with | ⟨0, _⟩ => rfl | ⟨1, _⟩ => rfl
theorem idx_v61 (k : Fin 16) (j : Fin 32) : idx_main_v61 (ix2 k j) = ix2 j k := by
  funext a; match a with | ⟨0, _⟩ => rfl | ⟨1, _⟩ => rfl
theorem lidx_v62 (r : Fin 100000) (j : Fin 32) (k : Fin 16) : lidx_main_v62 (ix2 r j) k = ix2 r k := by
  funext a; match a with | ⟨0, _⟩ => rfl | ⟨1, _⟩ => rfl
theorem ridx_v62 (r : Fin 100000) (j : Fin 32) (k : Fin 16) : ridx_main_v62 (ix2 r j) k = ix2 k j := by
  funext a; match a with | ⟨0, _⟩ => rfl | ⟨1, _⟩ => rfl
theorem idx_call2_v1 (r : Fin 100000) (j : Fin 32) : idx_main_call2_v1 (ix1 r) j = ix2 r j := by
  funext a; match a with | ⟨0, _⟩ => rfl | ⟨1, _⟩ => rfl
theorem idx_call2_v2 (r : Fin 100000) (z : Fin 1) : idx_main_call2_v2 (ix2 r z) = ix1 r := by
  funext a; match a with | ⟨0, _⟩ => rfl
theorem idx_v67 (r : Fin 100000) (j : Fin 32) : idx_main_v67 (ix2 r j) = ix2 r (0 : Fin 1) := by
  funext a; match a with | ⟨0, _⟩ => rfl | ⟨1, _⟩ => rfl

/-- The degree of node `r` floored at one. -/
theorem degree2_at (r : Fin 100000) :
    val_main_v52 (F := Ideal) x1 (ix1 r) = max (val_main_v50 (F := Ideal) x1 (ix1 r)) degFloor := by
  rw [val_main_v52_apply, val_main_v51_apply, val_main_cst_10_apply]
  rfl

/-- The neighbour mean of node `r` at hidden feature `k`. -/
theorem mean2_at (r : Fin 100000) (k : Fin 16) :
    val_main_v55 (F := Ideal) x0 x1 x2 x3 x4 (ix2 r k) = meanRow (fun k : Fin 16 => val_main_v46 (F := Ideal) x0 x1 x2 x3 x4 (ix2 r k)) (val_main_v50 (F := Ideal) x1 (ix1 r)) k := by
  rw [val_main_v55_apply, val_main_v54_apply, idx_v54, val_main_v53_apply, idx_v53, degree2_at]
  rfl

/-- The mean's product with the transposed left weights, at `(r, j)`. -/
theorem dotl2_at (r : Fin 100000) (j : Fin 32) :
    val_main_v57 (F := Ideal) x0 x1 x2 x3 x4 x5 (ix2 r j)
      = ∑ k : Fin 16, meanRow (fun k : Fin 16 => val_main_v46 (F := Ideal) x0 x1 x2 x3 x4 (ix2 r k)) (val_main_v50 (F := Ideal) x1 (ix1 r)) k * x5 (ix2 j k) := by
  rw [val_main_v57_apply]
  refine Finset.sum_congr rfl fun k _ => ?_
  rw [lidx_v57, ridx_v57, val_main_v56_apply, idx_v56, mean2_at]

/-- The hidden features' product with the transposed right weights, at `(r, j)`. -/
theorem dotr2_at (r : Fin 100000) (j : Fin 32) :
    val_main_v62 (F := Ideal) x0 x1 x2 x3 x4 x7 (ix2 r j)
      = ∑ k : Fin 16, val_main_v36 (F := Ideal) x0 x1 x2 x3 x4 (ix2 r k) * x7 (ix2 j k) := by
  rw [val_main_v62_apply]
  refine Finset.sum_congr rfl fun k _ => ?_
  rw [lidx_v62, ridx_v62, val_main_v61_apply, idx_v61]

/-- The row of node `r` before normalisation, at output feature `j`. -/
theorem lin2_at (r : Fin 100000) (j : Fin 32) :
    val_main_v63 (F := Ideal) x0 x1 x2 x3 x4 x5 x6 x7 (ix2 r j)
      = lin (meanRow (fun k : Fin 16 => val_main_v46 (F := Ideal) x0 x1 x2 x3 x4 (ix2 r k)) (val_main_v50 (F := Ideal) x1 (ix1 r))) (fun k : Fin 16 => val_main_v36 (F := Ideal) x0 x1 x2 x3 x4 (ix2 r k)) (fun (k : Fin 16) (j : Fin 32) => x5 (ix2 j k))
          (fun (k : Fin 16) (j : Fin 32) => x7 (ix2 j k)) (fun j : Fin 32 => x6 (ix1 j)) j := by
  rw [val_main_v63_apply, val_main_v60_apply, dotl2_at, dotr2_at, val_main_v59_apply, idx_v59, val_main_v58_apply, idx_v58]
  rfl

/-- The sum of the squares of the row of node `r`: the zero initial value adds nothing. -/
theorem sumsq2_at (r : Fin 100000) :
    val_main_call2_v1 (F := Ideal) x0 x1 x2 x3 x4 x5 x6 x7 (ix1 r)
      = ∑ j : Fin 32, (lin (meanRow (fun k : Fin 16 => val_main_v46 (F := Ideal) x0 x1 x2 x3 x4 (ix2 r k)) (val_main_v50 (F := Ideal) x1 (ix1 r))) (fun k : Fin 16 => val_main_v36 (F := Ideal) x0 x1 x2 x3 x4 (ix2 r k)) (fun (k : Fin 16) (j : Fin 32) => x5 (ix2 j k))
          (fun (k : Fin 16) (j : Fin 32) => x7 (ix2 j k)) (fun j : Fin 32 => x6 (ix1 j)) j)
          * (lin (meanRow (fun k : Fin 16 => val_main_v46 (F := Ideal) x0 x1 x2 x3 x4 (ix2 r k)) (val_main_v50 (F := Ideal) x1 (ix1 r))) (fun k : Fin 16 => val_main_v36 (F := Ideal) x0 x1 x2 x3 x4 (ix2 r k)) (fun (k : Fin 16) (j : Fin 32) => x5 (ix2 j k))
          (fun (k : Fin 16) (j : Fin 32) => x7 (ix2 j k)) (fun j : Fin 32 => x6 (ix1 j)) j) := by
  rw [val_main_call2_v1_apply, val_main_call2_cst_apply, Ideal.ofBits_def, Ideal.ofBits_zero_f32, zero_add]
  refine Finset.sum_congr rfl fun j _ => ?_
  rw [idx_call2_v1, val_main_call2_v0_apply, lin2_at]
  rfl

end Out

/-- The reference's result at `(r, q)`. -/
theorem out_row (x0 : (⟨S100000x64, .f32⟩ : BufTy).Contents (Elt Ideal)) (x1 : (⟨S2x1600000, .i32⟩ : BufTy).Contents (Elt Ideal))
    (x2 : (⟨S16x64, .f32⟩ : BufTy).Contents (Elt Ideal)) (x3 : (⟨S16, .f32⟩ : BufTy).Contents (Elt Ideal))
    (x4 : (⟨S16x64, .f32⟩ : BufTy).Contents (Elt Ideal)) (x5 : (⟨S32x16, .f32⟩ : BufTy).Contents (Elt Ideal))
    (x6 : (⟨S32, .f32⟩ : BufTy).Contents (Elt Ideal)) (x7 : (⟨S32x16, .f32⟩ : BufTy).Contents (Elt Ideal))
    (r : Fin 100000) (q : Fin 32) :
    val_main_v68 (F := Ideal) x0 x1 x2 x3 x4 x5 x6 x7 (ix2 r q)
      = outRow (fun k : Fin 16 => val_main_v46 (F := Ideal) x0 x1 x2 x3 x4 (ix2 r k)) (val_main_v50 (F := Ideal) x1 (ix1 r))
          (fun k : Fin 16 => val_main_v36 (F := Ideal) x0 x1 x2 x3 x4 (ix2 r k)) (fun (k : Fin 16) (j : Fin 32) => x5 (ix2 j k))
          (fun (k : Fin 16) (j : Fin 32) => x7 (ix2 j k)) (fun j : Fin 32 => x6 (ix1 j)) q := by
  rw [val_main_v68_apply, val_main_v67_apply, idx_v67, val_main_v66_apply, val_main_v64_apply, val_main_call2_v2_apply,
    idx_call2_v2, sumsq2_at, val_main_v65_apply, val_main_cst_11_apply, lin2_at]
  unfold outRow unitRow
  simp only [Ideal.maximumf_def, Ideal.hostDivf_def, Ideal.hostUnary_sqrt_def, Ideal.ofBits_def]

end Cert.ReferenceIdeal.Rows

end
-- ==== Proof.Joined.lean ====
/-
  The idealized kernel's buffers, read as the reference's stages.

  The kernel program computes its two aggregation stages (a gather over the edge list's sources and scatter-adds
  over its targets) on the host with the very operations the reference applies, so the arrays its kernel regions
  find are the reference's: the aggregated sums and the degree of each layer are the reference's own stages of the
  same arguments (for the second layer: of the first region's output), the weight arrays are the transposed weight
  arguments, the bias array the bias argument as one row.  With each region's output read whole (one row function
  at every node) and the reference's two layers read at an index (the same row function), the first region's
  output array is the reference's hidden layer and the second's is the reference's result.
-/
import proofs.«117718_j34772055228551_1_alg».proof.Proof.KernelBlocks0
import proofs.«117718_j34772055228551_1_alg».proof.Proof.KernelBlocks1
import proofs.«117718_j34772055228551_1_alg».proof.Proof.ReferenceRows
import Idealize.ShloMosaic.Lib.StableHlo.Run

set_option maxRecDepth 16384

noncomputable section

namespace Cert.Joined

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read (val_main_v1 val_main_v3 val_main_v13 val_main_v17 val_main_v36 val_main_v46 val_main_v50 val_main_v68)

variable (m : (ℓ : Loc nD τ sig) → Buf (Elt Ideal) ℓ) (ρ : Dev nD → PrngReg)

/-- A row function's value depends on its arguments only through their values. -/
theorem hiddenRow_congr {K J : Nat} {f0 g0 : Fin K → EReal} {a1 b1 : EReal} {f2 g2 : Fin K → EReal}
    {f3 g3 f5 g5 : Fin K → Fin J → EReal} {f4 g4 : Fin J → EReal} (q : Fin J)
    (e0 : f0 = g0) (e1 : a1 = b1) (e2 : f2 = g2) (e3 : f3 = g3) (e5 : f5 = g5) (e4 : f4 = g4) :
    Sage.hiddenRow f0 a1 f2 f3 f5 f4 q = Sage.hiddenRow g0 b1 g2 g3 g5 g4 q := by
  subst e0 e1 e2 e3 e5 e4; rfl
theorem outRow_congr {K J : Nat} {f0 g0 : Fin K → EReal} {a1 b1 : EReal} {f2 g2 : Fin K → EReal}
    {f3 g3 f5 g5 : Fin K → Fin J → EReal} {f4 g4 : Fin J → EReal} (q : Fin J)
    (e0 : f0 = g0) (e1 : a1 = b1) (e2 : f2 = g2) (e3 : f3 = g3) (e5 : f5 = g5) (e4 : f4 = g4) :
    Sage.outRow f0 a1 f2 f3 f5 f4 q = Sage.outRow g0 b1 g2 g3 g5 g4 q := by
  subst e0 e1 e2 e3 e5 e4; rfl

/-! ## The first region's arrays -/

/-- The first layer's aggregated sums are the reference's. -/
theorem agg1 (c : Dev nD) (r : Fin 100000) (k : Fin 64) :
    (V1 m ρ c (Pipeline.arrRef spec0 0) : Vec Ideal S100000x64 .f32) (ix2 r k)
      = val_main_v13 (F := Ideal) (m ((c : Thread nD τ).loc main_arg0)) (m ((c : Thread nD τ).loc main_arg1)) (ix2 r k) := by
  have e : V1 m ρ c main_v13 = val_main_v13 (F := Ideal) (m ((c : Thread nD τ).loc main_arg0)) (m ((c : Thread nD τ).loc main_arg1)) := by
    show StableHlo.after hostOps0 (W0 m ρ c) (Proc.devRef .tc main_v13) = _
    after_results
    rfl
  exact congrFun e _

/-- The first layer's degree column holds the reference's degrees. -/
theorem cnt1 (c : Dev nD) (r : Fin 100000) (z : Fin 1) :
    (V1 m ρ c (Pipeline.arrRef spec0 1) : Vec Ideal S100000x1 .f32) (ix2 r z)
      = val_main_v17 (F := Ideal) (m ((c : Thread nD τ).loc main_arg1)) (ix1 r) := by
  have e : (V1 m ρ c main_v18 : Vec Ideal S100000x1 .f32) = broadcastInDim S100000x1 ![0] bcast_S100000_S100000x1_0
      (val_main_v17 (F := Ideal) (m ((c : Thread nD τ).loc main_arg1))) := by
    show StableHlo.after hostOps0 (W0 m ρ c) (Proc.devRef .tc main_v18) = _
    after_results
    rfl
  show (V1 m ρ c main_v18 : Vec Ideal S100000x1 .f32) (ix2 r z) = _
  rw [e]
  exact broadcastInDim_apply _ bcast_S100000_S100000x1_0 _ (ix2 r z) (ix1 r) (fun a => match a with
    | ⟨0, _⟩ => by show r.val = if (100000 : Nat) = 1 then 0 else r.val; rw [if_neg (by decide)])

/-- The first region reads the node features themselves. -/
theorem feat1 (c : Dev nD) (r : Fin 100000) (k : Fin 64) :
    (V1 m ρ c (Pipeline.arrRef spec0 2) : Vec Ideal S100000x64 .f32) (ix2 r k) = (m ((c : Thread nD τ).loc main_arg0) : Vec Ideal S100000x64 .f32) (ix2 r k) := by
  have e : V1 m ρ c main_arg0 = m ((c : Thread nD τ).loc main_arg0) := by
    show StableHlo.after hostOps0 (W0 m ρ c) (Proc.devRef .tc main_arg0) = _
    after_results
  exact congrFun e _

/-- Its left weights are the first weight argument transposed. -/
theorem wl1 (c : Dev nD) (k : Fin 64) (j : Fin 16) :
    (V1 m ρ c (Pipeline.arrRef spec0 3) : Vec Ideal S64x16 .f32) (ix2 k j) = (m ((c : Thread nD τ).loc main_arg2) : Vec Ideal S16x64 .f32) (ix2 j k) := by
  have e : (V1 m ρ c main_v19 : Vec Ideal S64x16 .f32) = transpose S64x16 [1, 0] (m ((c : Thread nD τ).loc main_arg2) : Vec Ideal S16x64 .f32) transposes_S16x64_S64x16_1_0 := by
    show StableHlo.after hostOps0 (W0 m ρ c) (Proc.devRef .tc main_v19) = _
    after_results
  show (V1 m ρ c main_v19 : Vec Ideal S64x16 .f32) (ix2 k j) = _
  rw [e]
  exact transpose_apply [1, 0] _ transposes_S16x64_S64x16_1_0 (ix2 k j) (ix2 j k) (fun b => match b with
    | ⟨0, _⟩ => rfl
    | ⟨1, _⟩ => rfl)

/-- Its bias row is the first bias argument. -/
theorem bias1 (c : Dev nD) (z : Fin 1) (j : Fin 16) :
    (V1 m ρ c (Pipeline.arrRef spec0 4) : Vec Ideal S1x16 .f32) (ix2 z j) = (m ((c : Thread nD τ).loc main_arg3) : Vec Ideal S16 .f32) (ix1 j) := by
  have e : (V1 m ρ c main_v21 : Vec Ideal S1x16 .f32) = shapeCast S1x16 (m ((c : Thread nD τ).loc main_arg3) : Vec Ideal S16 .f32) shapeCasts_S16_S1x16 := by
    show StableHlo.after hostOps0 (W0 m ρ c) (Proc.devRef .tc main_v21) = _
    after_results
    rfl
  show (V1 m ρ c main_v21 : Vec Ideal S1x16 .f32) (ix2 z j) = _
  rw [e]
  refine shapeCast_apply _ shapeCasts_S16_S1x16 (ix2 z j) (ix1 j) ?_
  rw [Shape.rowMajor_val_one, Shape.rowMajor_val_two]
  show j.val = z.val * 16 + j.val
  have := z.isLt; omega

/-- Its right weights are the second weight argument transposed. -/
theorem wr1 (c : Dev nD) (k : Fin 64) (j : Fin 16) :
    (V1 m ρ c (Pipeline.arrRef spec0 5) : Vec Ideal S64x16 .f32) (ix2 k j) = (m ((c : Thread nD τ).loc main_arg4) : Vec Ideal S16x64 .f32) (ix2 j k) := by
  have e : (V1 m ρ c main_v20 : Vec Ideal S64x16 .f32) = transpose S64x16 [1, 0] (m ((c : Thread nD τ).loc main_arg4) : Vec Ideal S16x64 .f32) transposes_S16x64_S64x16_1_0 := by
    show StableHlo.after hostOps0 (W0 m ρ c) (Proc.devRef .tc main_v20) = _
    after_results
  show (V1 m ρ c main_v20 : Vec Ideal S64x16 .f32) (ix2 k j) = _
  rw [e]
  exact transpose_apply [1, 0] _ transposes_S16x64_S64x16_1_0 (ix2 k j) (ix2 j k) (fun b => match b with
    | ⟨0, _⟩ => rfl
    | ⟨1, _⟩ => rfl)

/-- After the first region its output array is the reference's hidden layer. -/
theorem hidden_eq (c : Dev nD) :
    W2 m ρ c (Proc.devRef .tc main_v22)
      = val_main_v36 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 6).trans ((Blocks0.final (V1 m ρ) c).trans (funext fun i => ?_))
  obtain ⟨r, q, rfl⟩ : ∃ (r : Fin 100000) (q : Fin 16), i = ix2 r q := ⟨i 0, i 1, eq_ix2 i⟩
  unfold Blocks0.hidden
  show Sage.hiddenRow (fun k : Fin 64 => (V1 m ρ c (Pipeline.arrRef spec0 0) : Vec Ideal S100000x64 .f32) (ix2 r k))
      ((V1 m ρ c (Pipeline.arrRef spec0 1) : Vec Ideal S100000x1 .f32) (ix2 r (0 : Fin 1)))
      (fun k : Fin 64 => (V1 m ρ c (Pipeline.arrRef spec0 2) : Vec Ideal S100000x64 .f32) (ix2 r k))
      (fun (k : Fin 64) (j : Fin 16) => (V1 m ρ c (Pipeline.arrRef spec0 3) : Vec Ideal S64x16 .f32) (ix2 k j))
      (fun (k : Fin 64) (j : Fin 16) => (V1 m ρ c (Pipeline.arrRef spec0 5) : Vec Ideal S64x16 .f32) (ix2 k j))
      (fun j : Fin 16 => (V1 m ρ c (Pipeline.arrRef spec0 4) : Vec Ideal S1x16 .f32) (ix2 (0 : Fin 1) j)) q = _
  rw [Cert.ReferenceIdeal.Rows.hidden_row (m ((c : Thread nD τ).loc main_arg0)) (m ((c : Thread nD τ).loc main_arg1))
    (m ((c : Thread nD τ).loc main_arg2)) (m ((c : Thread nD τ).loc main_arg3)) (m ((c : Thread nD τ).loc main_arg4)) r q]
  exact hiddenRow_congr q (funext fun k => agg1 m ρ c r k) (cnt1 m ρ c r (0 : Fin 1)) (funext fun k => feat1 m ρ c r k)
    (funext fun k => funext fun j => wl1 m ρ c k j) (funext fun k => funext fun j => wr1 m ρ c k j)
    (funext fun j => bias1 m ρ c (0 : Fin 1) j)

/-! ## The second region's arrays -/

/-- The edge list's sources and targets, computed before the first region, are still there at the second's. -/
theorem src_eq (c : Dev nD) : W2 m ρ c (Proc.devRef .tc main_v1) = val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)
theorem dst_eq (c : Dev nD) : W2 m ρ c (Proc.devRef .tc main_v3) = val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

/-- The second layer's weight and bias arguments are untouched before the second region. -/
theorem arg5_eq (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem arg6_eq (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem arg7_eq (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

set_option maxHeartbeats 4000000 in
/-- The second layer's aggregated sums are the reference's, of the hidden layer. -/
theorem agg2 (c : Dev nD) (r : Fin 100000) (k : Fin 16) :
    (V3 m ρ c (Pipeline.arrRef spec1 0) : Vec Ideal S100000x16 .f32) (ix2 r k)
      = val_main_v46 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 r k) := by
  have e : V3 m ρ c main_v32 = val_main_v46 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
    show StableHlo.after hostOps1 (W2 m ρ c) (Proc.devRef .tc main_v32) = _
    have h1 := src_eq m ρ c
    have h3 := dst_eq m ρ c
    have h22 := hidden_eq m ρ c
    generalize W2 m ρ c = W at h1 h3 h22 ⊢
    after_results_simp
    rw [h1, h3, h22]
    rfl
  exact congrFun e _

/-- The second layer's degree column holds the reference's degrees. -/
theorem cnt2 (c : Dev nD) (r : Fin 100000) (z : Fin 1) :
    (V3 m ρ c (Pipeline.arrRef spec1 1) : Vec Ideal S100000x1 .f32) (ix2 r z)
      = val_main_v50 (F := Ideal) (m ((c : Thread nD τ).loc main_arg1)) (ix1 r) := by
  have e : (V3 m ρ c main_v37 : Vec Ideal S100000x1 .f32) = broadcastInDim S100000x1 ![0] bcast_S100000_S100000x1_0
      (val_main_v50 (F := Ideal) (m ((c : Thread nD τ).loc main_arg1))) := by
    show StableHlo.after hostOps1 (W2 m ρ c) (Proc.devRef .tc main_v37) = _
    have h3 := dst_eq m ρ c
    generalize W2 m ρ c = W at h3 ⊢
    after_results
    rw [h3]
    rfl
  show (V3 m ρ c main_v37 : Vec Ideal S100000x1 .f32) (ix2 r z) = _
  rw [e]
  exact broadcastInDim_apply _ bcast_S100000_S100000x1_0 _ (ix2 r z) (ix1 r) (fun a => match a with
    | ⟨0, _⟩ => by show r.val = if (100000 : Nat) = 1 then 0 else r.val; rw [if_neg (by decide)])

/-- The second region's features are the hidden layer. -/
theorem feat2 (c : Dev nD) (r : Fin 100000) (k : Fin 16) :
    (V3 m ρ c (Pipeline.arrRef spec1 2) : Vec Ideal S100000x16 .f32) (ix2 r k)
      = val_main_v36 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 r k) := by
  have e : V3 m ρ c main_v22 = W2 m ρ c (Proc.devRef .tc main_v22) := by
    show StableHlo.after hostOps1 (W2 m ρ c) (Proc.devRef .tc main_v22) = _
    generalize W2 m ρ c = W
    after_results
  show (V3 m ρ c main_v22 : Vec Ideal S100000x16 .f32) (ix2 r k) = _
  rw [e, hidden_eq]

/-- Its left weights are the third weight argument transposed. -/
theorem wl2 (c : Dev nD) (k : Fin 16) (j : Fin 32) :
    (V3 m ρ c (Pipeline.arrRef spec1 3) : Vec Ideal S16x32 .f32) (ix2 k j) = (m ((c : Thread nD τ).loc main_arg5) : Vec Ideal S32x16 .f32) (ix2 j k) := by
  have e : (V3 m ρ c main_v38 : Vec Ideal S16x32 .f32) = transpose S16x32 [1, 0] (m ((c : Thread nD τ).loc main_arg5) : Vec Ideal S32x16 .f32) transposes_S32x16_S16x32_1_0 := by
    show StableHlo.after hostOps1 (W2 m ρ c) (Proc.devRef .tc main_v38) = _
    have h5 := arg5_eq m ρ c
    generalize W2 m ρ c = W at h5 ⊢
    after_results
    rw [h5]
  show (V3 m ρ c main_v38 : Vec Ideal S16x32 .f32) (ix2 k j) = _
  rw [e]
  exact transpose_apply [1, 0] _ transposes_S32x16_S16x32_1_0 (ix2 k j) (ix2 j k) (fun b => match b with
    | ⟨0, _⟩ => rfl
    | ⟨1, _⟩ => rfl)

/-- Its bias row is the second bias argument. -/
theorem bias2 (c : Dev nD) (z : Fin 1) (j : Fin 32) :
    (V3 m ρ c (Pipeline.arrRef spec1 4) : Vec Ideal S1x32 .f32) (ix2 z j) = (m ((c : Thread nD τ).loc main_arg6) : Vec Ideal S32 .f32) (ix1 j) := by
  have e : (V3 m ρ c main_v40 : Vec Ideal S1x32 .f32) = shapeCast S1x32 (m ((c : Thread nD τ).loc main_arg6) : Vec Ideal S32 .f32) shapeCasts_S32_S1x32 := by
    show StableHlo.after hostOps1 (W2 m ρ c) (Proc.devRef .tc main_v40) = _
    have h6 := arg6_eq m ρ c
    generalize W2 m ρ c = W at h6 ⊢
    after_results
    rw [h6]
    rfl
  show (V3 m ρ c main_v40 : Vec Ideal S1x32 .f32) (ix2 z j) = _
  rw [e]
  refine shapeCast_apply _ shapeCasts_S32_S1x32 (ix2 z j) (ix1 j) ?_
  rw [Shape.rowMajor_val_one, Shape.rowMajor_val_two]
  show j.val = z.val * 32 + j.val
  have := z.isLt; omega

/-- Its right weights are the fourth weight argument transposed. -/
theorem wr2 (c : Dev nD) (k : Fin 16) (j : Fin 32) :
    (V3 m ρ c (Pipeline.arrRef spec1 5) : Vec Ideal S16x32 .f32) (ix2 k j) = (m ((c : Thread nD τ).loc main_arg7) : Vec Ideal S32x16 .f32) (ix2 j k) := by
  have e : (V3 m ρ c main_v39 : Vec Ideal S16x32 .f32) = transpose S16x32 [1, 0] (m ((c : Thread nD τ).loc main_arg7) : Vec Ideal S32x16 .f32) transposes_S32x16_S16x32_1_0 := by
    show StableHlo.after hostOps1 (W2 m ρ c) (Proc.devRef .tc main_v39) = _
    have h7 := arg7_eq m ρ c
    generalize W2 m ρ c = W at h7 ⊢
    after_results
    rw [h7]
  show (V3 m ρ c main_v39 : Vec Ideal S16x32 .f32) (ix2 k j) = _
  rw [e]
  exact transpose_apply [1, 0] _ transposes_S32x16_S16x32_1_0 (ix2 k j) (ix2 j k) (fun b => match b with
    | ⟨0, _⟩ => rfl
    | ⟨1, _⟩ => rfl)

/-- After the second region its output array is the reference's result, of the same arguments. -/
theorem result_eq (c : Dev nD) :
    (dat1 (V3 m ρ) c).arrAt 6 cfg1.N
      = val_main_v68 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (Blocks1.final (V3 m ρ) c).trans (funext fun i => ?_)
  obtain ⟨r, q, rfl⟩ : ∃ (r : Fin 100000) (q : Fin 32), i = ix2 r q := ⟨i 0, i 1, eq_ix2 i⟩
  unfold Blocks1.output
  show Sage.outRow (fun k : Fin 16 => (V3 m ρ c (Pipeline.arrRef spec1 0) : Vec Ideal S100000x16 .f32) (ix2 r k))
      ((V3 m ρ c (Pipeline.arrRef spec1 1) : Vec Ideal S100000x1 .f32) (ix2 r (0 : Fin 1)))
      (fun k : Fin 16 => (V3 m ρ c (Pipeline.arrRef spec1 2) : Vec Ideal S100000x16 .f32) (ix2 r k))
      (fun (k : Fin 16) (j : Fin 32) => (V3 m ρ c (Pipeline.arrRef spec1 3) : Vec Ideal S16x32 .f32) (ix2 k j))
      (fun (k : Fin 16) (j : Fin 32) => (V3 m ρ c (Pipeline.arrRef spec1 5) : Vec Ideal S16x32 .f32) (ix2 k j))
      (fun j : Fin 32 => (V3 m ρ c (Pipeline.arrRef spec1 4) : Vec Ideal S1x32 .f32) (ix2 (0 : Fin 1) j)) q = _
  rw [Cert.ReferenceIdeal.Rows.out_row (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) r q]
  exact outRow_congr q (funext fun k => agg2 m ρ c r k) (cnt2 m ρ c r (0 : Fin 1)) (funext fun k => feat2 m ρ c r k)
    (funext fun k => funext fun j => wl2 m ρ c k j) (funext fun k => funext fun j => wr2 m ρ c k j)
    (funext fun j => bias2 m ρ c (0 : Fin 1) j)

end Cert.Joined

end
-- ==== Proof.lean ====
/-
  Two GraphSAGE layers (mean aggregation over an edge list; `lin_l(mean) + lin_r(x)` with a bias; each row divided by
  its Euclidean norm floored at a small constant; the hidden layer clamped at zero) computed two ways.  The kernel
  program does both aggregation stages on the host and each layer's dense stage in a kernel region over ten blocks of
  10000 nodes; the reference does everything on whole arrays.

  Why they agree over the extended reals.  A node's output row depends only on that node's aggregated row, degree and
  feature row and on the weights (`Cert.Sage.hiddenRow`, `Cert.Sage.outRow`).  Each kernel region's block at a row is
  that function of the loaded blocks' row (the matrix products and the lane reduction are finite sums), so after a
  region its output array is the function at every node of the arrays the region found; those arrays are the
  reference's stages, because the host operations before each region are the reference's own applied to the same
  values; and the reference's layers read at an index are the same function.  So the first region leaves the
  reference's hidden layer and the second its result.  No law of arithmetic beyond reading a sum as a sum is used:
  the two sides perform the same operations in the same order at every element, and the inputs' finiteness is never
  needed.

  The three frames: the two kernel programs' are the generated frame certificates; the reference has no kernel, and
  its frame is its run with the result dropped.  The idealization rewrote nothing, so `preserves` asks nothing.
-/
import proofs.«117718_j34772055228551_1_alg».proof.Defs
import proofs.«117718_j34772055228551_1_alg».proof.Proof.Gen.Kernel
import proofs.«117718_j34772055228551_1_alg».proof.Proof.Gen.Kernel.Skeleton
import proofs.«117718_j34772055228551_1_alg».proof.Proof.Gen.Kernel.Launch
import proofs.«117718_j34772055228551_1_alg».proof.Proof.Gen.Kernel.Points
import proofs.«117718_j34772055228551_1_alg».proof.Proof.Gen.Kernel.Frame
import proofs.«117718_j34772055228551_1_alg».proof.Proof.Gen.KernelIdeal
import proofs.«117718_j34772055228551_1_alg».proof.Proof.Gen.KernelIdeal.Skeleton
import proofs.«117718_j34772055228551_1_alg».proof.Proof.Gen.KernelIdeal.Launch
import proofs.«117718_j34772055228551_1_alg».proof.Proof.Gen.KernelIdeal.Points
import proofs.«117718_j34772055228551_1_alg».proof.Proof.Gen.KernelIdeal.Frame
import proofs.«117718_j34772055228551_1_alg».proof.Proof.Gen.ReferenceIdeal
import proofs.«117718_j34772055228551_1_alg».proof.Proof.Gen.ReferenceIdeal.Run
import proofs.«117718_j34772055228551_1_alg».proof.Proof.Gen.ReferenceIdeal.Read
import proofs.«117718_j34772055228551_1_alg».proof.Proof.Gen.Pre_finite_inputs
import proofs.«117718_j34772055228551_1_alg».proof.Proof.KernelResult
import proofs.«117718_j34772055228551_1_alg».proof.Proof.Joined
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the (agreeing) arguments in their result arrays. -/
theorem algebraic : Cert.algebraic_KernelIdeal_ReferenceIdeal := by
  intro m ρ m' ρ' _ hagree
  refine ⟨fun c => Cert.ReferenceIdeal.Read.val_main_v68 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Joined.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v68_eq m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
